-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x64x128 : Shape := ⟨4, ![16, 64, 64, 128]⟩
abbrev S_ : Shape := ⟨0, ![]⟩

class Facts : Prop where
  bcast_S_S16x64x64x128 : S_.BroadcastsInDim S16x64x64x128 (![] : Fin 0 → Fin S16x64x64x128.rank)
  reducesTo_S16x64x64x128_S_d0_1_2_3 : S16x64x64x128.ReducesTo [0, 1, 2, 3] S_
  h_S_ : 0 < S_.numel

variable [Facts]

def fn_part1 {F : FTy → Type} [FloatOps F] (main_v3 : IVec S_ 1) (main_v17 : IVec S16x64x64x128 32) (main_c_3 : IVec S_ 32) : IVec S_ 1 :=
  let main_v18 : IVec S16x64x64x128 32 := broadcastInDim S16x64x64x128 ![] bcast_S_S16x64x64x128 main_c_3
  let main_v19 : IVec S16x64x64x128 1 := cmpi .eq main_v17 main_v18
  let main_c_4 : IVec S_ 32 := constantI S_ 32 128#32
  let main_v20 : IVec S16x64x64x128 32 := broadcastInDim S16x64x64x128 ![] bcast_S_S16x64x64x128 main_c_4
  let main_v21 : IVec S16x64x64x128 1 := cmpi .eq main_v17 main_v20
  let main_v22 : IVec S16x64x64x128 1 := ori main_v19 main_v21
  let main_c_5 : IVec S_ 32 := constantI S_ 32 16384#32
  let main_v23 : IVec S16x64x64x128 32 := broadcastInDim S16x64x64x128 ![] bcast_S_S16x64x64x128 main_c_5
  let main_v24 : IVec S16x64x64x128 1 := cmpi .eq main_v17 main_v23
  let main_v25 : IVec S16x64x64x128 1 := ori main_v22 main_v24
  let main_c_6 : IVec S_ 32 := constantI S_ 32 16512#32
  let main_v26 : IVec S16x64x64x128 32 := broadcastInDim S16x64x64x128 ![] bcast_S_S16x64x64x128 main_c_6
  let main_v27 : IVec S16x64x64x128 1 := cmpi .eq main_v17 main_v26
  let main_v28 : IVec S16x64x64x128 1 := ori main_v25 main_v27
  let main_c_7 : IVec S_ 1 := constantI S_ 1 1#1
  let main_v29 : IVec S_ 1 := (fun x v => Host.reduce IntOp.andi x v reducesTo_S16x64x64x128_S_d0_1_2_3 h_S_) main_v28 main_c_7
  let main_v30 : IVec S_ 1 := andi main_v3 main_v29
  main_v30

def fn {F : FTy → Type} [FloatOps F] (main_arg0 : FVec F S16x64x64x128 .f32) (main_arg1 : IVec S16x64x64x128 32) : IVec S_ 1 :=
  let main_v0 : FVec F S16x64x64x128 .f32 := Host.absf main_arg0
  let main_cst : FVec F S_ .f32 := constant S_ .f32 0x7F800000#32
  let main_v1 : FVec F S16x64x64x128 .f32 := broadcastInDim S16x64x64x128 ![] bcast_S_S16x64x64x128 main_cst
  let main_v2 : IVec S16x64x64x128 1 := cmpf .olt main_v0 main_v1
  let main_c : IVec S_ 1 := constantI S_ 1 1#1
  let main_v3 : IVec S_ 1 := (fun x v => Host.reduce IntOp.andi x v reducesTo_S16x64x64x128_S_d0_1_2_3 h_S_) main_v2 main_c
  let main_v4 : IVec S16x64x64x128 32 := iotaInDim S16x64x64x128 32 0
  let main_v5 : IVec S16x64x64x128 32 := iotaInDim S16x64x64x128 32 1
  let main_v6 : IVec S16x64x64x128 32 := iotaInDim S16x64x64x128 32 2
  let main_v7 : IVec S16x64x64x128 32 := iotaInDim S16x64x64x128 32 3
  let main_c_0 : IVec S_ 32 := constantI S_ 32 2097152#32
  let main_v8 : IVec S16x64x64x128 32 := broadcastInDim S16x64x64x128 ![] bcast_S_S16x64x64x128 main_c_0
  let main_v9 : IVec S16x64x64x128 32 := muli main_v4 main_v8
  let main_c_1 : IVec S_ 32 := constantI S_ 32 32768#32
  let main_v10 : IVec S16x64x64x128 32 := broadcastInDim S16x64x64x128 ![] bcast_S_S16x64x64x128 main_c_1
  let main_v11 : IVec S16x64x64x128 32 := muli main_v5 main_v10
  let main_v12 : IVec S16x64x64x128 32 := addi main_v9 main_v11
  let main_c_2 : IVec S_ 32 := constantI S_ 32 256#32
  let main_v13 : IVec S16x64x64x128 32 := broadcastInDim S16x64x64x128 ![] bcast_S_S16x64x64x128 main_c_2
  let main_v14 : IVec S16x64x64x128 32 := muli main_v6 main_v13
  let main_v15 : IVec S16x64x64x128 32 := addi main_v12 main_v14
  let main_v16 : IVec S16x64x64x128 32 := addi main_v15 main_v7
  let main_v17 : IVec S16x64x64x128 32 := subi main_arg1 main_v16
  let main_c_3 : IVec S_ 32 := constantI S_ 32 0#32
  fn_part1 (F := F) main_v3 main_v17 main_c_3
-- ==== Kernel.lean ====
abbrev S16x64x64x128 : Shape := ⟨4, ![16, 64, 64, 128]⟩
abbrev S16x64x2x64x2x128 : Shape := ⟨6, ![16, 64, 2, 64, 2, 128]⟩
abbrev S1x64x64x128 : Shape := ⟨4, ![1, 64, 64, 128]⟩
abbrev S1x64x2x64x2x128 : Shape := ⟨6, ![1, 64, 2, 64, 2, 128]⟩
abbrev S1x64x1x64x1x128 : Shape := ⟨6, ![1, 64, 1, 64, 1, 128]⟩
abbrev S16x128x128x128 : Shape := ⟨4, ![16, 128, 128, 128]⟩

abbrev nBuf : Space → Nat
  | .hbm => 4
  | .vmem => 6
  | .smem => 0
  | _ => 0

abbrev bufTy : (tb : Table) → Fin (tcTables nBuf tb) → BufTy
  | .hbm, ⟨0, _⟩ => ⟨S16x64x64x128, .f32⟩
  | .hbm, ⟨1, _⟩ => ⟨S16x64x64x128, .i32⟩
  | .hbm, ⟨2, _⟩ => ⟨S16x64x2x64x2x128, .f32⟩
  | .hbm, ⟨3, _⟩ => ⟨S16x128x128x128, .f32⟩
  | .local _ .vmem, ⟨0, _⟩ => ⟨S1x64x64x128, .f32⟩
  | .local _ .vmem, ⟨1, _⟩ => ⟨S1x64x64x128, .f32⟩
  | .local _ .vmem, ⟨2, _⟩ => ⟨S1x64x64x128, .i32⟩
  | .local _ .vmem, ⟨3, _⟩ => ⟨S1x64x64x128, .i32⟩
  | .local _ .vmem, ⟨4, _⟩ => ⟨S1x64x2x64x2x128, .f32⟩
  | .local _ .vmem, ⟨5, _⟩ => ⟨S1x64x2x64x2x128, .f32⟩
  | _, _ => ⟨S16x64x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 6 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![arg0.toNat, c0_i32.toNat, c0_i32_0.toNat, c0_i32_1.toNat, c0_i32_2.toNat, c0_i32_3.toNat]

abbrev stage0_0 : Fin 2 → Memref sig .tc .vmem S1x64x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x64x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x2x64x2x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x64x64x128_S1x64x64x128_0_0_0_0 : ∀ a, (![0, 0, 0, 0] : Fin 4 → Nat) a + S1x64x64x128.size a ≤ S1x64x64x128.size a
  h_S1x64x64x128 : 0 < S1x64x64x128.numel
  inb_S1x64x2x64x2x128_S1x64x1x64x1x128_0_0_0_0_0_0 : ∀ a, (![0, 0, 0, 0, 0, 0] : Fin 6 → Nat) a + S1x64x1x64x1x128.size a ≤ S1x64x2x64x2x128.size a
  h_S1x64x1x64x1x128 : 0 < S1x64x1x64x1x128.numel
  shapeCasts_S1x64x1x64x1x128_S1x64x64x128 : S1x64x1x64x1x128.ShapeCasts S1x64x64x128
  shapeCasts_S1x64x64x128_S1x64x1x64x1x128 : S1x64x64x128.ShapeCasts S1x64x1x64x1x128
  inb_S1x64x2x64x2x128_S1x64x1x64x1x128_0_0_0_0_1_0 : ∀ a, (![0, 0, 0, 0, 1, 0] : Fin 6 → Nat) a + S1x64x1x64x1x128.size a ≤ S1x64x2x64x2x128.size a
  inb_S1x64x2x64x2x128_S1x64x1x64x1x128_0_0_1_0_0_0 : ∀ a, (![0, 0, 1, 0, 0, 0] : Fin 6 → Nat) a + S1x64x1x64x1x128.size a ≤ S1x64x2x64x2x128.size a
  inb_S1x64x2x64x2x128_S1x64x1x64x1x128_0_0_1_0_1_0 : ∀ a, (![0, 0, 1, 0, 1, 0] : Fin 6 → Nat) a + S1x64x1x64x1x128.size a ≤ S1x64x2x64x2x128.size a
  shapeCasts_S16x64x2x64x2x128_S16x128x128x128 : S16x64x2x64x2x128.ShapeCasts S16x128x128x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x64x128.size a ≤ S16x64x64x128.size a
  hwx0_0 : ∀ i : grid0.Coords, EltTy.bits .f32 = 32 ∨ (Rect.block (s := S16x64x64x128) S1x64x64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x64x128.size a ≤ S16x64x64x128.size a
  hwx0_1 : ∀ i : grid0.Coords, EltTy.bits .i32 = 32 ∨ (Rect.block (s := S16x64x64x128) S1x64x64x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x2x64x2x128.size a ≤ S16x64x2x64x2x128.size a
  hwx0_2 : ∀ i : grid0.Coords, EltTy.bits .f32 = 32 ∨ (Rect.block (s := S16x64x2x64x2x128) S1x64x2x64x2x128.size (cc0_transform_2 i) (hinb0_2 i)).WholeWords (EltTy.packing .f32)

variable [Facts₀]

abbrev win0_0 : Pipeline.Window sig grid0 :=
  Pipeline.Window.ofSpec (Memref.whole main_arg0) S1x64x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64x2x64x2x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x64x64x128 : Shape := ⟨4, ![16, 64, 64, 128]⟩
abbrev S8388608 : Shape := ⟨1, ![8388608]⟩
abbrev S16 : Shape := ⟨1, ![16]⟩
abbrev S16x524288 : Shape := ⟨2, ![16, 524288]⟩
abbrev S_ : Shape := ⟨0, ![]⟩
abbrev S16x2097152 : Shape := ⟨2, ![16, 2097152]⟩
abbrev S8388608x1 : Shape := ⟨2, ![8388608, 1]⟩
abbrev S8388608x2 : Shape := ⟨2, ![8388608, 2]⟩
abbrev S16x128x128x128 : Shape := ⟨4, ![16, 128, 128, 128]⟩

abbrev nBuf : Space → Nat
  | .hbm => 32
  | .vmem => 0
  | .smem => 0
  | _ => 0

abbrev bufTy : (tb : Table) → Fin (tcTables nBuf tb) → BufTy
  | .hbm, ⟨0, _⟩ => ⟨S16x64x64x128, .f32⟩
  | .hbm, ⟨1, _⟩ => ⟨S16x64x64x128, .i32⟩
  | .hbm, ⟨2, _⟩ => ⟨S8388608, .f32⟩
  | .hbm, ⟨3, _⟩ => ⟨S16, .i32⟩
  | .hbm, ⟨4, _⟩ => ⟨S16x524288, .i32⟩
  | .hbm, ⟨5, _⟩ => ⟨S8388608, .i32⟩
  | .hbm, ⟨6, _⟩ => ⟨S8388608, .i32⟩
  | .hbm, ⟨7, _⟩ => ⟨S_, .i32⟩
  | .hbm, ⟨8, _⟩ => ⟨S8388608, .i32⟩
  | .hbm, ⟨9, _⟩ => ⟨S8388608, .i32⟩
  | .hbm, ⟨10, _⟩ => ⟨S8388608, .i32⟩
  | .hbm, ⟨11, _⟩ => ⟨S_, .f32⟩
  | .hbm, ⟨12, _⟩ => ⟨S16x2097152, .f32⟩
  | .hbm, ⟨13, _⟩ => ⟨S_, .i32⟩
  | .hbm, ⟨14, _⟩ => ⟨S8388608, .i32⟩
  | .hbm, ⟨15, _⟩ => ⟨S8388608, .i1⟩
  | .hbm, ⟨16, _⟩ => ⟨S_, .i32⟩
  | .hbm, ⟨17, _⟩ => ⟨S8388608, .i32⟩
  | .hbm, ⟨18, _⟩ => ⟨S8388608, .i32⟩
  | .hbm, ⟨19, _⟩ => ⟨S8388608, .i32⟩
  | .hbm, ⟨20, _⟩ => ⟨S_, .i32⟩
  | .hbm, ⟨21, _⟩ => ⟨S8388608, .i32⟩
  | .hbm, ⟨22, _⟩ => ⟨S8388608, .i1⟩
  | .hbm, ⟨23, _⟩ => ⟨S_, .i32⟩
  | .hbm, ⟨24, _⟩ => ⟨S8388608, .i32⟩
  | .hbm, ⟨25, _⟩ => ⟨S8388608, .i32⟩
  | .hbm, ⟨26, _⟩ => ⟨S8388608, .i32⟩
  | .hbm, ⟨27, _⟩ => ⟨S8388608x1, .i32⟩
  | .hbm, ⟨28, _⟩ => ⟨S8388608x1, .i32⟩
  | .hbm, ⟨29, _⟩ => ⟨S8388608x2, .i32⟩
  | .hbm, ⟨30, _⟩ => ⟨S16x2097152, .f32⟩
  | .hbm, ⟨31, _⟩ => ⟨S16x128x128x128, .f32⟩
  | _, _ => ⟨S16x64x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_2 : Ref sig .tc := ⟨.hbm, 20, rfl⟩
abbrev main_v14 : Ref sig .tc := ⟨.hbm, 21, rfl⟩
abbrev main_v15 : Ref sig .tc := ⟨.hbm, 22, rfl⟩
abbrev main_c_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]

class Facts₀ : Prop where
  shapeCasts_S16x64x64x128_S8388608 : S16x64x64x128.ShapeCasts S8388608
  bcast_S16_S16x524288_0 : S16.BroadcastsInDim S16x524288 (![0] : Fin 1 → Fin S16x524288.rank)
  shapeCasts_S16x524288_S8388608 : S16x524288.ShapeCasts S8388608
  bcast_S_S8388608 : S_.BroadcastsInDim S8388608 (![] : Fin 0 → Fin S8388608.rank)
  bcast_S_S16x2097152 : S_.BroadcastsInDim S16x2097152 (![] : Fin 0 → Fin S16x2097152.rank)
  bcast_S8388608_S8388608x1_0 : S8388608.BroadcastsInDim S8388608x1 (![0] : Fin 1 → Fin S8388608x1.rank)
  concatenates_S8388608x1_S8388608x1_S8388608x2_d1 : Shape.Concatenates [S8388608x1, S8388608x1] S8388608x2 1
  shapeCasts_S16x2097152_S16x128x128x128 : S16x2097152.ShapeCasts S16x128x128x128
  scatter_S16x2097152_S8388608x2_S8388608_n_01_01_1_wf : ScatterDims.WF S16x2097152 S8388608x2 S8388608 [] [0, 1] [0, 1] 1

variable [Facts₀]

def scatter_S16x2097152_S8388608x2_S8388608_n_01_01_1 : ScatterDims S16x2097152 S8388608x2 S8388608 where
  updateWindowDims := []
  insertedWindowDims := [0, 1]
  scatterDimsToOperandDims := [0, 1]
  indexVectorDim := 1
  wf := scatter_S16x2097152_S8388608x2_S8388608_n_01_01_1_wf

class Facts : Prop extends Facts₀ where

variable [Facts]
-- ==== Proof.Unpool.lean ====
/-
  Max-unpooling by (2, 2) windows, as one function of the two argument arrays.

  The pooled tensor has shape (16, 64, 64, 128); the unpooled one (16, 128, 128, 128). Position (b, y, x, c) of the unpooled
  tensor lies in the window of the pooled element (b, y / 2, x / 2, c) -- its parent. The mask gives each pooled element the
  flat index, batch offset included, of the position its value goes to: ((b * 128 + y) * 128 + x) * 128 + c. A position
  holds its parent's value when the parent's mask names it, and zero otherwise (`unpool`).

  When every mask entry names one of the four positions of its own window (`InWindow`), the flat index of the element
  (b, h, w, c) is  b * 2^21 + (2 h + dh) * 2^14 + (2 w + dw) * 2^7 + c  with dh, dw in {0, 1}: bit 14 of the index within
  the image is dh and bit 7 is dw (the coordinates c < 2^7, 2 w + dw < 2^7, 2 h + dh < 2^7 do not carry into them), so
  selecting by those two bits (`unpoolBits`) is selecting by the index.
-/
import Idealize.ShloMosaic.PureOps.Ideal
import Idealize.ShloMosaic.Lib.ValueIdx

noncomputable section

namespace Cert.Unpool

open Idealize.ShloMosaic Idealize.ShloMosaic.ValueIdx

/-- The pooled tensor's shape. -/
abbrev Pooled : Shape := ⟨4, ![16, 64, 64, 128]⟩
/-- The unpooled tensor's shape. -/
abbrev Unpooled : Shape := ⟨4, ![16, 128, 128, 128]⟩

/-- The pooled element whose 2×2 window holds position `i`. -/
def parent (i : Unpooled.Idx) : Pooled.Idx :=
  ix4 (n0 := 16) (n1 := 64) (n2 := 64) (n3 := 128) (i 0)
    ⟨(i 1).val / 2, by have h : (i 1).val < 128 := (i 1).isLt; omega⟩
    ⟨(i 2).val / 2, by have h : (i 2).val < 128 := (i 2).isLt; omega⟩ (i 3)

/-- The flat index of position `i` in the unpooled tensor, batch offset included. -/
def flat (i : Unpooled.Idx) : Nat := (((i 0).val * 128 + (i 1).val) * 128 + (i 2).val) * 128 + (i 3).val

/-- Max-unpooling: a position holds its parent's value when the parent's mask names it, zero otherwise. -/
def unpool (val : Pooled.Idx → EReal) (mask : Pooled.Idx → BitVec 32) : Unpooled.Idx → EReal :=
  fun i => if (mask (parent i)).toNat = flat i then val (parent i) else 0

/-- Every mask entry names one of the four positions (2 h + dh, 2 w + dw), dh, dw ∈ {0, 1}, of its own window. -/
def InWindow (mask : Pooled.Idx → BitVec 32) : Prop :=
  ∀ (b : Fin 16) (h : Fin 64) (w : Fin 64) (c : Fin 128), ∃ dh dw : Nat, dh < 2 ∧ dw < 2 ∧
    (mask (ix4 b h w c)).toNat = ((b.val * 128 + (2 * h.val + dh)) * 128 + (2 * w.val + dw)) * 128 + c.val

/-- Bit `s` of a mask word's index within its image (the low 21 bits). -/
def quadBit (s : BitVec 32) (m : BitVec 32) : BitVec 32 :=
  IntOp.andi (IntOp.shrsi .vector (IntOp.andi m 2097151#32) s) 1#32

/-- Unpooling with the quadrant chosen by bits 14 and 7 of the parent's mask word. -/
def unpoolBits (val : Pooled.Idx → EReal) (mask : Pooled.Idx → BitVec 32) : Unpooled.Idx → EReal :=
  fun i => Scalar.select
    (IntOp.andi (IntOp.cmpi .eq (quadBit 14#32 (mask (parent i))) (BitVec.ofNat 32 ((i 1).val % 2)))
                (IntOp.cmpi .eq (quadBit 7#32 (mask (parent i))) (BitVec.ofNat 32 ((i 2).val % 2))))
    (val (parent i)) 0

/-- A word below 2^31 shifted right arithmetically by `s < 32` is its value divided by 2^s. -/
theorem toNat_shrsi_small (x : BitVec 32) (s : Nat) (hs : s < 32) (hx : x.toNat < 2 ^ 31) :
    (IntOp.shrsi .vector x (BitVec.ofNat 32 s)).toNat = x.toNat / 2 ^ s := by
  have hs' : (BitVec.ofNat 32 s).toNat = s := by
    rw [BitVec.toNat_ofNat]; exact Nat.mod_eq_of_lt (by omega)
  unfold IntOp.shrsi
  rw [if_pos (by rw [hs']; exact hs), BitVec.sshiftRight_eq', hs',
    BitVec.sshiftRight_eq_of_msb_false (BitVec.msb_eq_false_iff_two_mul_lt.2 (by omega)),
    BitVec.toNat_ushiftRight, Nat.shiftRight_eq_div_pow]

/-- The value of `quadBit`: bit `s` of the low 21 bits. -/
theorem toNat_quadBit (s : Nat) (hs : s < 32) (m : BitVec 32) :
    (quadBit (BitVec.ofNat 32 s) m).toNat = m.toNat % 2097152 / 2 ^ s % 2 := by
  have h21 : (IntOp.andi m 2097151#32).toNat = m.toNat % 2097152 := by
    unfold IntOp.andi
    rw [BitVec.toNat_and]
    exact Nat.and_two_pow_sub_one_eq_mod m.toNat 21
  unfold quadBit
  show (IntOp.shrsi .vector (IntOp.andi m 2097151#32) (BitVec.ofNat 32 s) &&& 1#32).toNat = _
  rw [BitVec.toNat_and, toNat_shrsi_small _ s hs (by rw [h21]; omega), h21]
  exact Nat.and_one_is_mod _

/-- Comparing two words that each hold a bit. -/
theorem cmpi_eq_bit (a b : Nat) (ha : a < 2) (hb : b < 2) :
    IntOp.cmpi .eq (BitVec.ofNat 32 a) (BitVec.ofNat 32 b) = if a = b then 1#1 else 0#1 := by
  have ha' : a = 0 ∨ a = 1 := by omega
  have hb' : b = 0 ∨ b = 1 := by omega
  rcases ha' with rfl | rfl <;> rcases hb' with rfl | rfl <;> decide

/-- Under `InWindow`, choosing the quadrant by bits 14 and 7 of the mask word is choosing it by the flat index: the
    word is  b·2^21 + (2h + dh)·2^14 + (2w + dw)·2^7 + c, its two bits are dh and dw, and it equals the flat index of
    position (b, y, x, c) with y / 2 = h, x / 2 = w exactly when dh = y mod 2 and dw = x mod 2. -/
theorem unpoolBits_eq_unpool (val : Pooled.Idx → EReal) (mask : Pooled.Idx → BitVec 32) (hw : InWindow mask) :
    unpoolBits val mask = unpool val mask := by
  funext i
  have h0 : (i 0).val < 16 := (i 0).isLt
  have h1 : (i 1).val < 128 := (i 1).isLt
  have h2 : (i 2).val < 128 := (i 2).isLt
  have h3 : (i 3).val < 128 := (i 3).isLt
  obtain ⟨dh, dw, hdh, hdw, hm⟩ := hw (i 0) ⟨(i 1).val / 2, by omega⟩ ⟨(i 2).val / 2, by omega⟩ (i 3)
  have hm' : (mask (parent i)).toNat
      = (((i 0).val * 128 + (2 * ((i 1).val / 2) + dh)) * 128 + (2 * ((i 2).val / 2) + dw)) * 128 + (i 3).val := hm
  have q14 : quadBit 14#32 (mask (parent i)) = BitVec.ofNat 32 dh := by
    apply BitVec.eq_of_toNat_eq
    rw [show (14#32 : BitVec 32) = BitVec.ofNat 32 14 from rfl, toNat_quadBit 14 (by decide), hm', BitVec.toNat_ofNat]
    omega
  have q7 : quadBit 7#32 (mask (parent i)) = BitVec.ofNat 32 dw := by
    apply BitVec.eq_of_toNat_eq
    rw [show (7#32 : BitVec 32) = BitVec.ofNat 32 7 from rfl, toNat_quadBit 7 (by decide), hm', BitVec.toNat_ofNat]
    omega
  show Scalar.select
      (IntOp.andi (IntOp.cmpi .eq (quadBit 14#32 (mask (parent i))) (BitVec.ofNat 32 ((i 1).val % 2)))
                  (IntOp.cmpi .eq (quadBit 7#32 (mask (parent i))) (BitVec.ofNat 32 ((i 2).val % 2))))
      (val (parent i)) 0
    = if (mask (parent i)).toNat = flat i then val (parent i) else 0
  rw [q14, q7, cmpi_eq_bit dh _ hdh (by omega), cmpi_eq_bit dw _ hdw (by omega), hm']
  unfold flat
  have key : (((i 0).val * 128 + (2 * ((i 1).val / 2) + dh)) * 128 + (2 * ((i 2).val / 2) + dw)) * 128 + (i 3).val
        = (((i 0).val * 128 + (i 1).val) * 128 + (i 2).val) * 128 + (i 3).val
      ↔ (dh = (i 1).val % 2 ∧ dw = (i 2).val % 2) := by omega
  by_cases hA : dh = (i 1).val % 2
  · by_cases hB : dw = (i 2).val % 2
    · have hyes := key.2 ⟨hA, hB⟩
      rw [if_pos hA, if_pos hB, if_pos hyes]; exact select_one _ _
    · have hno : ¬ _ := fun h => hB (key.1 h).2
      rw [if_pos hA, if_neg hB, if_neg hno]; exact select_zero _ _
  · have hno : ¬ _ := fun h => hA (key.1 h).1
    rw [if_neg hA, if_neg hno]
    by_cases hB : dw = (i 2).val % 2
    · rw [if_pos hB]; exact select_zero _ _
    · rw [if_neg hB]; exact select_zero _ _

end Cert.Unpool

end
-- ==== Proof.PreWindow.lean ====
/-
  From the precondition to the window property: the printed predicate's second conjunct says, entry by entry, that the mask
  word minus the flat index of its window's first position (2h, 2w, c) of image b is one of 0, 128, 16384, 16512.

  At entry (b, h, w, c) the first position of the window has flat index  b * 2^21 + h * 2^15 + w * 2^8 + c  within the batch
  (the "corner"), a sum of 32-bit words that stays below 2^25 and so does not wrap. A word whose difference from the corner
  is δ, with δ one of 0, 2^7, 2^14, 2^14 + 2^7, has the value corner + δ, and
    b * 2^21 + h * 2^15 + w * 2^8 + c + dh * 2^14 + dw * 2^7 = ((b * 128 + (2 h + dh)) * 128 + (2 w + dw)) * 128 + c
  for dh, dw in {0, 1}: the four differences name the four positions (2 h + dh, 2 w + dw) of the window.
-/
import proofs.«413334_j73383811219747_1_alg».proof.Pre_finite_inputs
import proofs.«413334_j73383811219747_1_alg».proof.Proof.Gen.Pre_finite_inputs
import proofs.«413334_j73383811219747_1_alg».proof.Proof.Unpool
import Idealize.ShloMosaic.Lib.ReduceAll
import Idealize.ShloMosaic.Lib.StableHlo.Predicate

noncomputable section

namespace Cert.Unpool

open Idealize.ShloMosaic Idealize.ShloMosaic.ValueIdx

/-- The scalar shape has one index. -/
private instance : Subsingleton Cert.Pre_finite_inputs.S_.Idx := ⟨fun a b => funext fun d => d.elim0⟩

/-- The flat index, as a 32-bit word, of the first position (2h, 2w, c) of the window of element (b, h, w, c) in image b. -/
private def corner (b h w c : Nat) : BitVec 32 :=
  IntOp.addi (IntOp.addi (IntOp.addi (IntOp.muli (BitVec.ofNat 32 b) 2097152#32) (IntOp.muli (BitVec.ofNat 32 h) 32768#32))
    (IntOp.muli (BitVec.ofNat 32 w) 256#32)) (BitVec.ofNat 32 c)

/-- The corner word does not wrap: its value is b·2^21 + h·2^15 + w·2^8 + c. -/
private theorem toNat_corner (b h w c : Nat) (hb : b < 16) (hh : h < 64) (hw : w < 64) (hc : c < 128) :
    (corner b h w c).toNat = b * 2097152 + h * 32768 + w * 256 + c := by
  have eb : (BitVec.ofNat 32 b).toNat = b := by rw [BitVec.toNat_ofNat]; exact Nat.mod_eq_of_lt (by omega)
  have eh : (BitVec.ofNat 32 h).toNat = h := by rw [BitVec.toNat_ofNat]; exact Nat.mod_eq_of_lt (by omega)
  have ew : (BitVec.ofNat 32 w).toNat = w := by rw [BitVec.toNat_ofNat]; exact Nat.mod_eq_of_lt (by omega)
  have ec : (BitVec.ofNat 32 c).toNat = c := by rw [BitVec.toNat_ofNat]; exact Nat.mod_eq_of_lt (by omega)
  have k21 : (2097152#32 : BitVec 32).toNat = 2097152 := rfl
  have k15 : (32768#32 : BitVec 32).toNat = 32768 := rfl
  have k8 : (256#32 : BitVec 32).toNat = 256 := rfl
  unfold corner IntOp.addi IntOp.muli
  rw [BitVec.toNat_add, BitVec.toNat_add, BitVec.toNat_add, BitVec.toNat_mul, BitVec.toNat_mul, BitVec.toNat_mul,
    eb, eh, ew, ec, k21, k15, k8]
  omega

/-- A word whose difference from the corner is δ < 2^15 has the value corner + δ. -/
private theorem toNat_of_sub_corner (b h w c δ : Nat) (hb : b < 16) (hh : h < 64) (hw : w < 64) (hc : c < 128) (hδ : δ < 32768)
    (m : BitVec 32) (e : IntOp.subi m (corner b h w c) = BitVec.ofNat 32 δ) :
    m.toNat = b * 2097152 + h * 32768 + w * 256 + c + δ := by
  have e' := congrArg BitVec.toNat e
  unfold IntOp.subi at e'
  rw [BitVec.toNat_sub, toNat_corner b h w c hb hh hw hc, BitVec.toNat_ofNat] at e'
  have hm := m.isLt
  omega

/-- The element fact of the printed predicate, read at one entry: the word is the corner plus one of 0, 128, 16384, 16512,
    that is, the flat index of position (2h + dh, 2w + dw, c) of image b with dh, dw in {0, 1}. -/
private theorem window_of_word (b h w c : Nat) (hb : b < 16) (hh : h < 64) (hw : w < 64) (hc : c < 128) (m : BitVec 32)
    (e : IntOp.ori (IntOp.ori (IntOp.ori (IntOp.cmpi .eq (IntOp.subi m (corner b h w c)) 0#32)
          (IntOp.cmpi .eq (IntOp.subi m (corner b h w c)) 128#32))
          (IntOp.cmpi .eq (IntOp.subi m (corner b h w c)) 16384#32))
          (IntOp.cmpi .eq (IntOp.subi m (corner b h w c)) 16512#32) = 1#1) :
    ∃ dh dw : Nat, dh < 2 ∧ dw < 2 ∧ m.toNat = ((b * 128 + (2 * h + dh)) * 128 + (2 * w + dw)) * 128 + c := by
  rcases IntOp.ori_eq_one.1 e with e | e
  · rcases IntOp.ori_eq_one.1 e with e | e
    · rcases IntOp.ori_eq_one.1 e with e | e
      · have t := toNat_of_sub_corner b h w c 0 hb hh hw hc (by omega) m (IntOp.cmpi_eq.1 e)
        exact ⟨0, 0, by omega, by omega, by omega⟩
      · have t := toNat_of_sub_corner b h w c 128 hb hh hw hc (by omega) m (IntOp.cmpi_eq.1 e)
        exact ⟨0, 1, by omega, by omega, by omega⟩
    · have t := toNat_of_sub_corner b h w c 16384 hb hh hw hc (by omega) m (IntOp.cmpi_eq.1 e)
      exact ⟨1, 0, by omega, by omega, by omega⟩
  · have t := toNat_of_sub_corner b h w c 16512 hb hh hw hc (by omega) m (IntOp.cmpi_eq.1 e)
    exact ⟨1, 1, by omega, by omega, by omega⟩

/-- Where the precondition holds, every mask entry names a position of its own window. -/
theorem inWindow_of_pre {F : FTy → Type} [FloatOps F]
    (val : FVec F Cert.Pre_finite_inputs.S16x64x64x128 .f32) (mask : IVec Cert.Pre_finite_inputs.S16x64x64x128 32)
    (h : Cert.Pre_finite_inputs.fn (F := F) val mask = fun _ => 1#1) : InWindow mask := by
  have h0 := congrFun h ValueIdx.ix0
  unfold Cert.Pre_finite_inputs.fn Cert.Pre_finite_inputs.fn_part1 at h0
  dsimp only at h0
  -- the predicate is the conjunction of two reductions by "and": keep the second, the one over the mask
  have h1 := (IntOp.andi_eq_one.1 h0).2
  intro b hh w c
  -- a reduction by "and" over all four axes that is 1 had a 1 at every entry
  have e := Host.reduce_andi_all _ _ _ _ _ h1 (ix4 b hh w c)
  exact window_of_word b.val hh.val w.val c.val b.isLt hh.isLt w.isLt c.isLt (mask (ix4 b hh w c)) e

end Cert.Unpool

end
-- ==== Proof.KernelValue.lean ====
/-
  The kernel's result array: every output position holds its parent's value or zero, the quadrant chosen by bits 14 and 7 of
  the parent's mask word.

  The kernel works on one image a grid point. It writes the six-axis array out6[b, h, i, w, j, c], (i, j) the position inside
  the 2 x 2 window of the pooled element (b, h, w, c), in four stores, one per quadrant (i, j): the pooled values where bit 14
  of the mask word is i and bit 7 is j, zero elsewhere. The four quadrants cover the image's block, so the block is ONE
  function of the two loaded blocks (`unpool6 1`), the sixteen blocks tile the array, and the array after the region is the
  same function of the two argument arrays (`unpool6 16`). The one operation after the region reshapes
  [16, 64, 2, 64, 2, 128] to [16, 128, 128, 128]: position (b, y, x, c) takes the element (b, y / 2, y mod 2, x / 2, x mod 2, c),
  whose pooled element is the parent of (b, y, x, c) and whose two window coordinates are y mod 2 and x mod 2 -- which is
  `Cert.Unpool.unpoolBits`.
-/
import proofs.«413334_j73383811219747_1_alg».proof.KernelIdeal
import proofs.«413334_j73383811219747_1_alg».proof.Proof.Gen.KernelIdeal
import proofs.«413334_j73383811219747_1_alg».proof.Proof.Gen.KernelIdeal.Frame
import proofs.«413334_j73383811219747_1_alg».proof.Proof.Unpool
import Idealize.ShloMosaic.Lib.Pipeline.Value
import Idealize.ShloMosaic.Lib.ValueIdx
import Idealize.ShloMosaic.Lib.ValueIdxRank6
import Idealize.ShloMosaic.Lib.ValueLayout
import Idealize.ShloMosaic.Lib.StableHlo.Run
import Idealize.ShloMosaic.PureOps.Ideal.Laws

noncomputable section

namespace Cert.KernelIdeal.UnpoolRun

open Cert.KernelIdeal Cert.KernelIdeal.Gen Idealize.ShloMosaic Idealize.ShloMosaic.TcCoe Idealize.SL.Sem
open Idealize.ShloMosaic.ValueIdx
open Cert.Unpool (quadBit)

/-- The value one quadrant's store writes: the loaded values where bits 14 and 7 of the mask words are the words a and b,
    zero elsewhere, with the two unit axes of the quadrant inserted. -/
def quad (a b : BitVec 32) (x0 : Vec Ideal S1x64x64x128 .f32) (x1 : Vec Ideal S1x64x64x128 .i32) :
    Vec Ideal S1x64x1x64x1x128 .f32 :=
  shapeCast S1x64x1x64x1x128
    (select (andi (cmpi .eq (k0_pay5 (F := Ideal) x1) (broadcast S1x64x64x128 a))
                  (cmpi .eq (k0_pay6 (F := Ideal) x1) (broadcast S1x64x64x128 b)))
      x0 (broadcast S1x64x64x128 (Scalar.ofBits (F := Ideal) .f32 0x00000000#32)))
    Facts₀.shapeCasts_S1x64x64x128_S1x64x1x64x1x128

/-- Each of the four stores' values is a quadrant's: the pairs of words compared against are (0, 0), (0, 1), (1, 0), (1, 1). -/
theorem store00_eq (x0 : Vec Ideal S1x64x64x128 .f32) (x1 : Vec Ideal S1x64x64x128 .i32) :
    k0_pay7 (F := Ideal) x0 x1 = quad 0#32 0#32 x0 x1 := rfl
theorem store01_eq (x0 : Vec Ideal S1x64x64x128 .f32) (x1 : Vec Ideal S1x64x64x128 .i32) :
    k0_pay1 (F := Ideal) (k0_pay8 (F := Ideal) x0 x1) = quad 0#32 1#32 x0 x1 := rfl
theorem store10_eq (x0 : Vec Ideal S1x64x64x128 .f32) (x1 : Vec Ideal S1x64x64x128 .i32) :
    k0_pay2 (F := Ideal) x0 (k0_pay5 (F := Ideal) x1) (k0_pay6 (F := Ideal) x1) = quad 1#32 0#32 x0 x1 := rfl
theorem store11_eq (x0 : Vec Ideal S1x64x64x128 .f32) (x1 : Vec Ideal S1x64x64x128 .i32) :
    k0_pay3 (F := Ideal) x0 (k0_pay5 (F := Ideal) x1) (k0_pay6 (F := Ideal) x1) = quad 1#32 1#32 x0 x1 := rfl

/-- A quadrant's stored value at an index: the select on the two bits of the mask word at the pooled position. -/
theorem quad_apply (a b : BitVec 32) (x0 : Vec Ideal S1x64x64x128 .f32) (x1 : Vec Ideal S1x64x64x128 .i32)
    (x : S1x64x1x64x1x128.Idx) (k : S1x64x64x128.Idx)
    (h0 : (k 0).val = (x 0).val) (h1 : (k 1).val = (x 1).val) (h2 : (k 2).val = (x 3).val) (h3 : (k 3).val = (x 5).val) :
    quad a b x0 x1 x
      = Scalar.select (IntOp.andi (IntOp.cmpi .eq (quadBit 14#32 (x1 k)) a) (IntOp.cmpi .eq (quadBit 7#32 (x1 k)) b))
          (x0 k) (0 : EReal) := by
  unfold quad
  refine (shapeCast_apply _ _ x k ?_).trans ?_
  · rw [Shape.rowMajor_val_four, Shape.rowMajor_val_six]
    have e2 : (x 2).val < 1 := (x 2).isLt
    have e4 : (x 4).val < 1 := (x 4).isLt
    show (((k 0).val * 64 + (k 1).val) * 64 + (k 2).val) * 128 + (k 3).val
      = (((((x 0).val * 64 + (x 1).val) * 1 + (x 2).val) * 64 + (x 3).val) * 1 + (x 4).val) * 128 + (x 5).val
    rw [h0, h1, h2, h3]
    omega
  · show Scalar.select (IntOp.andi (IntOp.cmpi .eq (quadBit 14#32 (x1 k)) a) (IntOp.cmpi .eq (quadBit 7#32 (x1 k)) b))
        (x0 k) (Ideal.ofBits .f32 0x00000000#32) = _
    rw [Ideal.ofBits_zero_f32]

/-- Unpooling with the window's two axes kept apart: position (b, h, i, w, j, c) of the six-axis array holds the pooled
    value at (b, h, w, c) when bits 14 and 7 of its mask word are i and j, zero otherwise. The batch extent is a parameter:
    one image for a block, sixteen for the array. -/
def unpool6 (B : Nat) (val : (⟨4, ![B, 64, 64, 128]⟩ : Shape).Idx → EReal) (mask : (⟨4, ![B, 64, 64, 128]⟩ : Shape).Idx → BitVec 32) :
    (⟨6, ![B, 64, 2, 64, 2, 128]⟩ : Shape).Idx → EReal :=
  fun y => Scalar.select
    (IntOp.andi (IntOp.cmpi .eq (quadBit 14#32 (mask (ix4 (y 0) (y 1) (y 3) (y 5)))) (BitVec.ofNat 32 (y 2).val))
                (IntOp.cmpi .eq (quadBit 7#32 (mask (ix4 (y 0) (y 1) (y 3) (y 5)))) (BitVec.ofNat 32 (y 4).val)))
    (val (ix4 (y 0) (y 1) (y 3) (y 5))) 0

/-- The store of quadrant (i, j) writes the block's function on its rectangle. -/
theorem quad_on_rect (i j : Nat)
    (inb : ∀ a, (![0, 0, i, 0, j, 0] : Fin 6 → Nat) a + S1x64x1x64x1x128.size a ≤ S1x64x2x64x2x128.size a)
    (x0 : Vec Ideal S1x64x64x128 .f32) (x1 : Vec Ideal S1x64x64x128 .i32) (x : S1x64x1x64x1x128.Idx) :
    quad (BitVec.ofNat 32 i) (BitVec.ofNat 32 j) x0 x1 x
      = unpool6 1 x0 x1 ((Rect.unit (s := S1x64x2x64x2x128) ![0, 0, i, 0, j, 0] S1x64x1x64x1x128.size inb).emb x) := by
  have e2 : (x 2).val < 1 := (x 2).isLt
  have e4 : (x 4).val < 1 := (x 4).isLt
  unfold unpool6
  generalize hy : (Rect.unit (s := S1x64x2x64x2x128) ![0, 0, i, 0, j, 0] S1x64x1x64x1x128.size inb).emb x = y
  have q0 : (y 0).val = (x 0).val := by rw [← hy]; show 0 + 1 * (x 0).val = (x 0).val; omega
  have q1 : (y 1).val = (x 1).val := by rw [← hy]; show 0 + 1 * (x 1).val = (x 1).val; omega
  have q2 : (y 2).val = i := by rw [← hy]; show i + 1 * (x 2).val = i; omega
  have q3 : (y 3).val = (x 3).val := by rw [← hy]; show 0 + 1 * (x 3).val = (x 3).val; omega
  have q4 : (y 4).val = j := by rw [← hy]; show j + 1 * (x 4).val = j; omega
  have q5 : (y 5).val = (x 5).val := by rw [← hy]; show 0 + 1 * (x 5).val = (x 5).val; omega
  rw [q2, q4]
  exact quad_apply _ _ x0 x1 x _ q0 q1 q3 q5

theorem zero_offsets : (![0, 0, 0, 0] : Fin 4 → Nat) = fun _ => 0 := funext fun a => by fin_cases a <;> rfl

/-- What the body leaves in the output's buffer is the block's function of the two loaded blocks: each of the four
    stores writes it on its own quadrant, and the quadrants cover the buffer. -/
theorem buffer_eq (x0 : Vec Ideal S1x64x64x128 .f32) (x1 : Vec Ideal S1x64x64x128 .i32) :
    out0_2 (F := Ideal) x0 x1 = unpool6 1 x0 x1 := by
  funext y
  unfold out0_2
  simp only [View.ld_unit_zero (S := S1x64x64x128) zero_offsets]
  rw [store00_eq, store01_eq, store10_eq, store11_eq]
  refine View.canon_apply_of_pieces (Val := Elt Ideal) (S := S1x64x2x64x2x128) (e := .f32) (unpool6 1 x0 x1) _ ?_ y (cover0_2 _ _ _ _ y)
  intro p hp x
  simp only [List.mem_cons, List.mem_nil_iff, or_false] at hp
  rcases hp with rfl | rfl | rfl | rfl
  · exact quad_on_rect 1 1 Facts₀.inb_S1x64x2x64x2x128_S1x64x1x64x1x128_0_0_1_0_1_0 x0 x1 x
  · exact quad_on_rect 1 0 Facts₀.inb_S1x64x2x64x2x128_S1x64x1x64x1x128_0_0_1_0_0_0 x0 x1 x
  · exact quad_on_rect 0 1 Facts₀.inb_S1x64x2x64x2x128_S1x64x1x64x1x128_0_0_0_0_1_0 x0 x1 x
  · exact quad_on_rect 0 0 Facts₀.inb_S1x64x2x64x2x128_S1x64x1x64x1x128_0_0_0_0_0_0 x0 x1 x

section

variable (m : (ℓ : Loc nD τ sig) → Buf (Elt Ideal) ℓ)

/-- The windows' index maps over the sixteen points: all three windows move along the batch axis together, one image a
    point, and sit at block zero on every other axis. -/
theorem windows_move_together : ∀ t : Fin cfg0.N,
    win0_0.index t (0 : Fin 4) = win0_2.index t (0 : Fin 6) ∧ win0_0.index t (1 : Fin 4) = 0
    ∧ win0_0.index t (2 : Fin 4) = 0 ∧ win0_0.index t (3 : Fin 4) = 0
    ∧ win0_1.index t (0 : Fin 4) = win0_2.index t (0 : Fin 6) ∧ win0_1.index t (1 : Fin 4) = 0
    ∧ win0_1.index t (2 : Fin 4) = 0 ∧ win0_1.index t (3 : Fin 4) = 0
    ∧ win0_2.index t (1 : Fin 6) = 0 ∧ win0_2.index t (2 : Fin 6) = 0 ∧ win0_2.index t (3 : Fin 6) = 0
    ∧ win0_2.index t (4 : Fin 6) = 0 ∧ win0_2.index t (5 : Fin 6) = 0 :=
  (by decide +kernel : ∀ t : Fin grid0.N, _)

/-- Every image is some point's. -/
theorem every_image_a_point : ∀ b : Fin 16, ∃ t : Fin cfg0.N, win0_2.index t (0 : Fin 6) = b.val :=
  (by decide +kernel : ∀ b : Fin 16, ∃ t : Fin grid0.N, win0_2.index t (0 : Fin 6) = b.val)

/-- A block's function at an index of the block is the array's function at the index the block's element sits at, when
    the two loaded blocks hold the arrays' values there and the window's own two coordinates are kept. -/
theorem unpool6_block (val : S16x64x64x128.Idx → EReal) (mask : S16x64x64x128.Idx → BitVec 32)
    (x0 : S1x64x64x128.Idx → EReal) (x1 : S1x64x64x128.Idx → BitVec 32)
    (j : S1x64x2x64x2x128.Idx) (e : S16x64x2x64x2x128.Idx)
    (h0 : x0 (ix4 (j 0) (j 1) (j 3) (j 5)) = val (ix4 (e 0) (e 1) (e 3) (e 5)))
    (h1 : x1 (ix4 (j 0) (j 1) (j 3) (j 5)) = mask (ix4 (e 0) (e 1) (e 3) (e 5)))
    (h2 : (e 2).val = (j 2).val) (h4 : (e 4).val = (j 4).val) :
    unpool6 1 x0 x1 j = unpool6 16 val mask e := by
  unfold unpool6
  rw [h0, h1, h2, h4]

/-- What point t writes back is block t of the six-axis unpooling of the argument arrays. -/
theorem written_back_eq (c : Dev nD) (t : Fin cfg0.N) :
    (dats m 0 c).flushed 2 t
      = ((cfg0.win 2).blk t).view.read (Elt Ideal) (unpool6 16 (V m c main_arg0) (V m c main_arg1)) := by
  show (cfg0.win 2).cut (grid0.coords t) ((dats m 0 c).after 2 t) = _
  rw [after0_2, buffer_eq]
  obtain ⟨a0, a1, a2, a3, b0, b1, b2, b3, c1, c2, c3, c4, c5⟩ := windows_move_together t
  funext j
  show unpool6 1 (iblk m c 0 t) (iblk m c 1 t) j
    = unpool6 16 (V m c main_arg0) (V m c main_arg1) (((cfg0.win 2).blk t).view.emb j)
  refine unpool6_block (V m c main_arg0) (V m c main_arg1) (iblk m c 0 t) (iblk m c 1 t) j (((cfg0.win 2).blk t).view.emb j)
    ?_ ?_ ?_ ?_
  · show V m c main_arg0 (((cfg0.win 0).blk t).view.emb (ix4 (j 0) (j 1) (j 3) (j 5))) = _
    refine congrArg (V m c main_arg0) ?_
    funext a; apply Fin.ext
    match a with
    | ⟨0, _⟩ => show win0_0.index t (0 : Fin 4) * 1 + 1 * (j 0).val = win0_2.index t (0 : Fin 6) * 1 + 1 * (j 0).val; omega
    | ⟨1, _⟩ => show win0_0.index t (1 : Fin 4) * 64 + 1 * (j 1).val = win0_2.index t (1 : Fin 6) * 64 + 1 * (j 1).val; omega
    | ⟨2, _⟩ => show win0_0.index t (2 : Fin 4) * 64 + 1 * (j 3).val = win0_2.index t (3 : Fin 6) * 64 + 1 * (j 3).val; omega
    | ⟨3, _⟩ => show win0_0.index t (3 : Fin 4) * 128 + 1 * (j 5).val = win0_2.index t (5 : Fin 6) * 128 + 1 * (j 5).val; omega
  · show V m c main_arg1 (((cfg0.win 1).blk t).view.emb (ix4 (j 0) (j 1) (j 3) (j 5))) = _
    refine congrArg (V m c main_arg1) ?_
    funext a; apply Fin.ext
    match a with
    | ⟨0, _⟩ => show win0_1.index t (0 : Fin 4) * 1 + 1 * (j 0).val = win0_2.index t (0 : Fin 6) * 1 + 1 * (j 0).val; omega
    | ⟨1, _⟩ => show win0_1.index t (1 : Fin 4) * 64 + 1 * (j 1).val = win0_2.index t (1 : Fin 6) * 64 + 1 * (j 1).val; omega
    | ⟨2, _⟩ => show win0_1.index t (2 : Fin 4) * 64 + 1 * (j 3).val = win0_2.index t (3 : Fin 6) * 64 + 1 * (j 3).val; omega
    | ⟨3, _⟩ => show win0_1.index t (3 : Fin 4) * 128 + 1 * (j 5).val = win0_2.index t (5 : Fin 6) * 128 + 1 * (j 5).val; omega
  · show win0_2.index t (2 : Fin 6) * 2 + 1 * (j 2).val = (j 2).val; omega
  · show win0_2.index t (4 : Fin 6) * 2 + 1 * (j 4).val = (j 4).val; omega

/-- An index of the six-axis array lies in point t's block exactly when each coordinate is in the block's range. -/
theorem mem_block_iff (t : Fin cfg0.N) (i : S16x64x2x64x2x128.Idx) :
    i ∈ ((cfg0.win 2).blk t).view.set ↔ ∀ a : Fin 6, win0_2.index t a * S1x64x2x64x2x128.size a ≤ (i a).val
      ∧ (i a).val < win0_2.index t a * S1x64x2x64x2x128.size a + S1x64x2x64x2x128.size a := by
  show i ∈ ((View.whole main_v0).slice (win0_2.rect t)).set ↔ _
  rw [View.set_slice_whole, Rect.mem_set_unit]
  exact Iff.rfl

/-- The six-axis array after the region: every index is in the block of its own image's point, so the array is the
    six-axis unpooling of the argument arrays. -/
theorem array_eq (c : Dev nD) : (dats m 0 c).arrAt 2 cfg0.N = unpool6 16 (V m c main_arg0) (V m c main_arg1) :=
  (dats m 0 c).arrAt_eq_of_cover 2 (unpool6 16 (V m c main_arg0) (V m c main_arg1)) (fun t _ => written_back_eq m c t) fun i => by
    obtain ⟨t, ht⟩ := every_image_a_point (i 0)
    obtain ⟨a0, a1, a2, a3, b0, b1, b2, b3, c1, c2, c3, c4, c5⟩ := windows_move_together t
    refine ⟨t, flush0_2 t, ?_⟩
    rw [mem_block_iff]
    have h1 : (i 1).val < 64 := (i 1).isLt
    have h2 : (i 2).val < 2 := (i 2).isLt
    have h3 : (i 3).val < 64 := (i 3).isLt
    have h4 : (i 4).val < 2 := (i 4).isLt
    have h5 : (i 5).val < 128 := (i 5).isLt
    intro a
    match a with
    | ⟨0, _⟩ => show win0_2.index t (0 : Fin 6) * 1 ≤ (i 0).val ∧ (i 0).val < win0_2.index t (0 : Fin 6) * 1 + 1; omega
    | ⟨1, _⟩ => show win0_2.index t (1 : Fin 6) * 64 ≤ (i 1).val ∧ (i 1).val < win0_2.index t (1 : Fin 6) * 64 + 64; omega
    | ⟨2, _⟩ => show win0_2.index t (2 : Fin 6) * 2 ≤ (i 2).val ∧ (i 2).val < win0_2.index t (2 : Fin 6) * 2 + 2; omega
    | ⟨3, _⟩ => show win0_2.index t (3 : Fin 6) * 64 ≤ (i 3).val ∧ (i 3).val < win0_2.index t (3 : Fin 6) * 64 + 64; omega
    | ⟨4, _⟩ => show win0_2.index t (4 : Fin 6) * 2 ≤ (i 4).val ∧ (i 4).val < win0_2.index t (4 : Fin 6) * 2 + 2; omega
    | ⟨5, _⟩ => show win0_2.index t (5 : Fin 6) * 128 ≤ (i 5).val ∧ (i 5).val < win0_2.index t (5 : Fin 6) * 128 + 128; omega

/-- The reshaped result after the one host operation that follows the region. -/
theorem reshaped_eq (c : Dev nD) :
    Pipeline.afterTail₀ cfgs (dats m) 0 (V0 m) [hostOps1] c main_v1
      = shapeCast S16x128x128x128 (unpool6 16 (V m c main_arg0) (V m c main_arg1))
          Facts₀.shapeCasts_S16x64x2x64x2x128_S16x128x128x128 := by
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.devRef .tc main_v0)
      = unpool6 16 (V m c main_arg0) (V m c main_arg1) :=
    (Pipeline.withArrays_arr spec0 launch0.win.arr_inj c _ _ 2).trans (array_eq m c)
  funext i
  exact congrFun (congrArg (fun A : S16x64x2x64x2x128.Idx → EReal =>
    shapeCast S16x128x128x128 A Facts₀.shapeCasts_S16x64x2x64x2x128_S16x128x128x128) e) i

/-- The reshape to four axes read at a position: (b, y, x, c) takes the six-axis array's element (b, y / 2, y mod 2, x / 2,
    x mod 2, c), the same row-major place, which is the unpooling by the two bits at that position. -/
theorem reshape_unpool6_apply (val : S16x64x64x128.Idx → EReal) (mask : S16x64x64x128.Idx → BitVec 32) (i : S16x128x128x128.Idx) :
    shapeCast S16x128x128x128 (unpool6 16 val mask) Facts₀.shapeCasts_S16x64x2x64x2x128_S16x128x128x128 i
      = Cert.Unpool.unpoolBits val mask i := by
  have h0 : (i 0).val < 16 := (i 0).isLt
  have h1 : (i 1).val < 128 := (i 1).isLt
  have h2 : (i 2).val < 128 := (i 2).isLt
  have h3 : (i 3).val < 128 := (i 3).isLt
  refine (shapeCast_apply _ _ i (ix6 (n0 := 16) (n1 := 64) (n2 := 2) (n3 := 64) (n4 := 2) (n5 := 128) (i 0)
    ⟨(i 1).val / 2, by omega⟩ ⟨(i 1).val % 2, by omega⟩ ⟨(i 2).val / 2, by omega⟩ ⟨(i 2).val % 2, by omega⟩ (i 3)) ?_).trans ?_
  · rw [Shape.rowMajor_val_six, Shape.rowMajor_val_four]
    show (((((i 0).val * 64 + (i 1).val / 2) * 2 + (i 1).val % 2) * 64 + (i 2).val / 2) * 2 + (i 2).val % 2) * 128 + (i 3).val
      = (((i 0).val * 128 + (i 1).val) * 128 + (i 2).val) * 128 + (i 3).val
    omega
  · rfl

end

/-- Every weakly fair execution of the idealized kernel's @main ends with the result array at `unpoolBits` of the
    argument arrays, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v1)
        = Cert.Unpool.unpoolBits (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  exact (θ_run defs _ _).mono (fun r h c =>
    ⟨((h c).2 main_v1 (Pipeline.mem_restRefs_of main_v1 rfl (by decide))).trans
        ((reshaped_eq m c).trans (funext fun i => reshape_unpool6_apply (V m c main_arg0) (V m c main_arg1) i)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.UnpoolRun

end
-- ==== Proof.RefValue.lean ====
/-
  The reference's result array: the accumulating scatter into zeros, read at a position, is the sum of the values of the
  pooled elements whose index lands there; under the window property that is the position's parent alone, or nobody.

  Update j (the pooled element with flat index j) carries the two-component index (b, mask - b * 2^21), b = j / 524288 its
  image, each component passed through "add the extent if negative". Under the window property the mask word is
  b * 2^21 + L with 0 <= L < 2^21, so neither component is negative and the update lands at (b, L): at the position whose
  flat index, batch offset included, is the mask word itself.
-/
import proofs.«413334_j73383811219747_1_alg».proof.ReferenceIdeal
import proofs.«413334_j73383811219747_1_alg».proof.Proof.Gen.ReferenceIdeal
import proofs.«413334_j73383811219747_1_alg».proof.Proof.Gen.ReferenceIdeal.Read
import proofs.«413334_j73383811219747_1_alg».proof.Proof.Unpool
import Idealize.ShloMosaic.Lib.Pipeline.Value
import Idealize.ShloMosaic.Lib.ValueIdx
import Idealize.ShloMosaic.Lib.StableHlo.Predicate
import Idealize.ShloMosaic.PureOps.Ideal.Laws

noncomputable section

namespace Cert.ReferenceIdeal.UnpoolRef

open Cert.ReferenceIdeal Cert.ReferenceIdeal.Gen Idealize.ShloMosaic Idealize.ShloMosaic.ValueIdx
open Idealize.ShloMosaic.StableHlo.Predicate (toInt_eq_toNat_of_lt toInt_ofNat_small slt_iff_toNat)

/-- The scatter's dimension numbers: a two-component index vector naming both operand axes, no window axes. -/
abbrev dsc : ScatterDims S16x2097152 S8388608x2 S8388608 := scatter_S16x2097152_S8388608x2_S8388608_n_01_01_1

/-! ## Where an update lands -/

theorem sKept_nil : dsc.sKept = [] := by decide

/-- No operand axis is a window axis: the window coordinate is zero on both. -/
theorem window_zero (j : S8388608.Idx) (a : Fin S16x2097152.rank) : dsc.window j a = 0 := by
  unfold ScatterDims.window
  rw [dif_neg (by rw [sKept_nil]; exact List.not_mem_nil)]

/-- Update `j` reads component `k` of its start index at `(j, k)`. -/
theorem siIdx_eq (j : S8388608.Idx) (k : Fin 2) (hk : k.val < dsc.scatterDimsToOperandDims.length) :
    dsc.siIdx j ⟨k.val, hk⟩ = ix2 (n0 := 8388608) (n1 := 2) (j 0) k := by
  funext b
  match b with
  | ⟨0, hb⟩ =>
    unfold ScatterDims.siIdx
    have hne : ¬ ((⟨0, hb⟩ : Fin S8388608x2.rank).val = dsc.indexVectorDim) := Nat.zero_ne_one
    rw [dif_neg hne]
    apply Fin.ext
    rfl
  | ⟨1, hb⟩ =>
    unfold ScatterDims.siIdx
    have he : (⟨1, hb⟩ : Fin S8388608x2.rank).val = dsc.indexVectorDim := rfl
    rw [dif_pos he]
    rfl

theorem start0 (j : S8388608.Idx) (idx : IVec S8388608x2 32) :
    dsc.start j idx 0 = (idx (ix2 (n0 := 8388608) (n1 := 2) (j 0) 0)).toInt := by
  unfold ScatterDims.start
  rw [dif_pos (by decide)]
  exact congrArg (fun q => (idx q).toInt) (siIdx_eq j 0 (by decide))

theorem start1 (j : S8388608.Idx) (idx : IVec S8388608x2 32) :
    dsc.start j idx 1 = (idx (ix2 (n0 := 8388608) (n1 := 2) (j 0) 1)).toInt := by
  unfold ScatterDims.start
  rw [dif_pos (by decide)]
  exact congrArg (fun q => (idx q).toInt) (siIdx_eq j 1 (by decide))

/-- An update whose two index components are `p0 < 16` and `p1 < 2097152` lands at `(p0, p1)`. -/
theorem resultIdx_some (j : S8388608.Idx) (idx : IVec S8388608x2 32) (p0 : Fin 16) (p1 : Fin 2097152)
    (h0 : (idx (ix2 (n0 := 8388608) (n1 := 2) (j 0) 0)).toInt = (p0.val : Int))
    (h1 : (idx (ix2 (n0 := 8388608) (n1 := 2) (j 0) 1)).toInt = (p1.val : Int)) :
    dsc.resultIdx? j idx = some (ix2 p0 p1) := by
  have H : ∀ a, 0 ≤ dsc.start j idx a + dsc.window j a ∧ dsc.start j idx a + dsc.window j a < S16x2097152.size a := by
    intro a
    match a with
    | ⟨0, _⟩ =>
      show 0 ≤ dsc.start j idx 0 + dsc.window j 0 ∧ dsc.start j idx 0 + dsc.window j 0 < (16 : ℕ)
      rw [start0, window_zero, h0]; have := p0.isLt; omega
    | ⟨1, _⟩ =>
      show 0 ≤ dsc.start j idx 1 + dsc.window j 1 ∧ dsc.start j idx 1 + dsc.window j 1 < (2097152 : ℕ)
      rw [start1, window_zero, h1]; have := p1.isLt; omega
  unfold ScatterDims.resultIdx?
  rw [dif_pos H]
  congr 1
  funext a
  match a with
  | ⟨0, _⟩ =>
    apply Fin.ext
    show (dsc.start j idx 0 + dsc.window j 0).toNat = p0.val
    rw [start0, window_zero, h0]; omega
  | ⟨1, _⟩ =>
    apply Fin.ext
    show (dsc.start j idx 1 + dsc.window j 1).toNat = p1.val
    rw [start1, window_zero, h1]; omega

/-! ## The two index components -/

/-- "Add the extent if negative" keeps a word below 2^31. -/
theorem select_slt_zero (x y : BitVec 32) (hx : x.toNat < 2 ^ 31) :
    Scalar.select (IntOp.cmpi .slt x 0#32) y x = x := by
  have h : IntOp.cmpi .slt x 0#32 = 0#1 :=
    eq_zero_of_ne_one (fun h => by have := (slt_iff_toNat hx (by decide)).1 h; simp at this)
  rw [h]; exact select_zero _ _

/-- The image number of the pooled element with flat index `q`, as the reference computes it. -/
theorem image_word (q : S8388608.Idx) : Read.val_main_v3 (F := Ideal) q = BitVec.ofNat 32 ((q 0).val / 524288) := by
  rw [Read.val_main_v3_apply, Read.val_main_v2_apply, Read.val_main_v1_apply]

/-- The first index component of update `q`: its image number. -/
theorem comp0 (q : S8388608.Idx) :
    Read.val_main_v13 (F := Ideal) q = BitVec.ofNat 32 ((q 0).val / 524288) := by
  have hq : (q 0).val < 8388608 := (q 0).isLt
  rw [Read.val_main_v13_apply, Read.val_main_v10_apply, Read.val_main_v9_apply, Read.val_main_c_0_apply, image_word]
  exact select_slt_zero _ _ (by rw [BitVec.toNat_ofNat]; omega)

/-- The second index component of update `q`, where the mask word of its element is `b * 2^21 + L`, `L < 2^21`,
    `b` its image number: `L`. -/
theorem comp1 (mask : Cert.Unpool.Pooled.Idx → BitVec 32) (q : S8388608.Idx) (L : ℕ) (hL : L < 2097152)
    (hm : (mask (Read.idx_main_v4 q)).toNat = (q 0).val / 524288 * 2097152 + L) :
    Read.val_main_v18 (F := Ideal) mask q = BitVec.ofNat 32 L := by
  have hq : (q 0).val < 8388608 := (q 0).isLt
  have h7 : Read.val_main_v7 (F := Ideal) mask q = BitVec.ofNat 32 L := by
    rw [Read.val_main_v7_apply, Read.val_main_v4_apply, Read.val_main_v6_apply, Read.val_main_v5_apply,
      Read.val_main_c_apply, image_word]
    apply BitVec.eq_of_toNat_eq
    unfold IntOp.subi IntOp.muli
    rw [BitVec.toNat_sub, BitVec.toNat_mul, BitVec.toNat_ofNat, BitVec.toNat_ofNat, BitVec.toNat_ofNat, hm]
    omega
  rw [Read.val_main_v18_apply, Read.val_main_v15_apply, Read.val_main_v14_apply, Read.val_main_c_2_apply, h7]
  exact select_slt_zero _ _ (by rw [BitVec.toNat_ofNat]; omega)

/-- The scatter indices at `(q, 0)`: the first piece of the concatenation. -/
theorem indices_fst (mask : Cert.Unpool.Pooled.Idx → BitVec 32) (q : Fin 8388608) :
    Read.val_main_v21 (F := Ideal) mask (ix2 (n0 := 8388608) (n1 := 2) q 0) = Read.val_main_v13 (F := Ideal) (ix1 q) := by
  unfold Read.val_main_v21
  rw [concatenate_pair_apply_left (t := S8388608x2) (s₁ := S8388608x1) (s₂ := S8388608x1) (1 : Fin S8388608x2.rank) _ _ _ (ix2 (n0 := 8388608) (n1 := 2) q 0) rfl
    (ix2 (n0 := 8388608) (n1 := 1) q 0) (fun b => by match b with | ⟨0, _⟩ => rfl | ⟨1, _⟩ => rfl),
    Read.val_main_v19_apply]
  congr 1
  funext a
  match a with
  | ⟨0, _⟩ => rfl

/-- The scatter indices at `(q, 1)`: the second piece of the concatenation. -/
theorem indices_snd (mask : Cert.Unpool.Pooled.Idx → BitVec 32) (q : Fin 8388608) :
    Read.val_main_v21 (F := Ideal) mask (ix2 (n0 := 8388608) (n1 := 2) q 1) = Read.val_main_v18 (F := Ideal) mask (ix1 q) := by
  unfold Read.val_main_v21
  rw [concatenate_pair_apply_right (t := S8388608x2) (s₁ := S8388608x1) (s₂ := S8388608x1) (1 : Fin S8388608x2.rank) _ _ _ (ix2 (n0 := 8388608) (n1 := 2) q 1) rfl rfl
    (ix2 (n0 := 8388608) (n1 := 1) q 0)
    (fun b hb => by match b with | ⟨0, _⟩ => rfl | ⟨1, _⟩ => exact absurd rfl hb) rfl,
    Read.val_main_v20_apply]
  congr 1
  funext a
  match a with
  | ⟨0, _⟩ => rfl

/-! ## Which update hits which position -/

/-- The window property at an element given as an index. -/
theorem window_at (mask : Cert.Unpool.Pooled.Idx → BitVec 32) (hw : Cert.Unpool.InWindow mask) (e : Cert.Unpool.Pooled.Idx) :
    ∃ dh dw : ℕ, dh < 2 ∧ dw < 2 ∧ (mask e).toNat
      = (((e 0).val * 128 + (2 * (e 1).val + dh)) * 128 + (2 * (e 2).val + dw)) * 128 + (e 3).val := by
  obtain ⟨dh, dw, h1, h2, h3⟩ := hw (e 0) (e 1) (e 2) (e 3)
  have he : mask (ix4 (e 0) (e 1) (e 2) (e 3)) = mask e := congrArg mask (eq_ix4 e).symm
  exact ⟨dh, dw, h1, h2, by rw [← he]; exact h3⟩

/-- Under the window property, the update of the pooled element with flat index `q` lands at position `i` of the
    [16, 2097152] operand exactly when the element's mask word is `i`'s flat index `i₀ · 2^21 + i₁`. -/
theorem lands (mask : Cert.Unpool.Pooled.Idx → BitVec 32) (hw : Cert.Unpool.InWindow mask) (q : Fin 8388608)
    (i : S16x2097152.Idx) :
    dsc.resultIdx? (ix1 q) (Read.val_main_v21 (F := Ideal) mask) = some i
      ↔ (mask (Read.idx_main_v4 (ix1 q))).toNat = (i 0).val * 2097152 + (i 1).val := by
  have hq : q.val < 8388608 := q.isLt
  have hi0 : (i 0).val < 16 := (i 0).isLt
  have hi1 : (i 1).val < 2097152 := (i 1).isLt
  obtain ⟨dh, dw, hdh, hdw, hm⟩ := window_at mask hw (Read.idx_main_v4 (ix1 q))
  have c0 : (Read.idx_main_v4 (ix1 q) 0).val = q.val / 524288 := rfl
  have c1 : (Read.idx_main_v4 (ix1 q) 1).val = q.val / 8192 % 64 := rfl
  have c2 : (Read.idx_main_v4 (ix1 q) 2).val = q.val / 128 % 64 := rfl
  have c3 : (Read.idx_main_v4 (ix1 q) 3).val = q.val % 128 := rfl
  rw [c0, c1, c2, c3] at hm
  have hm2 := hm
  obtain ⟨L, hLdef⟩ : ∃ L : ℕ, L = ((2 * (q.val / 8192 % 64) + dh) * 128 + (2 * (q.val / 128 % 64) + dw)) * 128 + q.val % 128 := ⟨_, rfl⟩
  have hL : L < 2097152 := by omega
  have hm3 : (mask (Read.idx_main_v4 (ix1 q))).toNat = q.val / 524288 * 2097152 + L := by omega
  have hb : q.val / 524288 < 16 := by omega
  clear hLdef hm hm2 c0 c1 c2 c3 hdh hdw
  have hsome : dsc.resultIdx? (ix1 q) (Read.val_main_v21 (F := Ideal) mask)
      = some (ix2 (⟨q.val / 524288, hb⟩ : Fin 16) (⟨L, hL⟩ : Fin 2097152)) := by
    apply resultIdx_some
    · show (Read.val_main_v21 (F := Ideal) mask (ix2 (n0 := 8388608) (n1 := 2) q 0)).toInt = ((q.val / 524288 : ℕ) : Int)
      rw [indices_fst, comp0]
      show (BitVec.ofNat 32 (q.val / 524288)).toInt = ((q.val / 524288 : ℕ) : Int)
      exact toInt_ofNat_small _ (by omega)
    · show (Read.val_main_v21 (F := Ideal) mask (ix2 (n0 := 8388608) (n1 := 2) q 1)).toInt = ((L : ℕ) : Int)
      rw [indices_snd, comp1 mask (ix1 q) L hL hm3]
      exact toInt_ofNat_small _ (by omega)
  rw [hsome]
  constructor
  · intro h
    have h' := Option.some.inj h
    have a0 : q.val / 524288 = (i 0).val := congrArg Fin.val (congrFun h' 0)
    have a1 : L = (i 1).val := congrArg Fin.val (congrFun h' 1)
    rw [hm3, a0, a1]
  · intro h
    have a0 : q.val / 524288 = (i 0).val := by omega
    have a1 : L = (i 1).val := by omega
    exact congrArg some (funext fun a => match a with
      | ⟨0, _⟩ => Fin.ext a0
      | ⟨1, _⟩ => Fin.ext a1)

/-- The same for the position `i` of the unpooled tensor, read through the final reshape: the update lands on it
    exactly when the element's mask word is `i`'s flat index. -/
theorem lands_unpooled (mask : Cert.Unpool.Pooled.Idx → BitVec 32) (hw : Cert.Unpool.InWindow mask) (j : S8388608.Idx)
    (i : Cert.Unpool.Unpooled.Idx) :
    dsc.resultIdx? j (Read.val_main_v21 (F := Ideal) mask) = some (Read.idx_main_v23 i)
      ↔ (mask (Read.idx_main_v4 j)).toNat = Cert.Unpool.flat i := by
  obtain ⟨q, rfl⟩ : ∃ q : Fin 8388608, j = ix1 q := ⟨j 0, eq_ix1 j⟩
  rw [lands mask hw q]
  have hflat : ((Read.idx_main_v23 i) 0).val * 2097152 + ((Read.idx_main_v23 i) 1).val = Cert.Unpool.flat i :=
    Nat.div_add_mod' ((((i 0).val * 128 + (i 1).val) * 128 + (i 2).val) * 128 + (i 3).val) 2097152
  rw [hflat]

/-! ## The sum has at most one term -/

/-- Under the window property, an element whose mask word is the flat index of position `i` is `i`'s parent: the word is
    ((b · 128 + (2h + dh)) · 128 + (2w + dw)) · 128 + c, and the mixed-radix digits of a number are unique. -/
theorem elt_eq_parent (mask : Cert.Unpool.Pooled.Idx → BitVec 32) (hw : Cert.Unpool.InWindow mask) (q : Fin 8388608)
    (i : Cert.Unpool.Unpooled.Idx) (h : (mask (Read.idx_main_v4 (ix1 q))).toNat = Cert.Unpool.flat i) :
    Read.idx_main_v4 (ix1 q) = Cert.Unpool.parent i := by
  have hq : q.val < 8388608 := q.isLt
  have hi0 : (i 0).val < 16 := (i 0).isLt
  have hi1 : (i 1).val < 128 := (i 1).isLt
  have hi2 : (i 2).val < 128 := (i 2).isLt
  have hi3 : (i 3).val < 128 := (i 3).isLt
  obtain ⟨dh, dw, hdh, hdw, hm⟩ := window_at mask hw (Read.idx_main_v4 (ix1 q))
  have c0 : (Read.idx_main_v4 (ix1 q) 0).val = q.val / 524288 := rfl
  have c1 : (Read.idx_main_v4 (ix1 q) 1).val = q.val / 8192 % 64 := rfl
  have c2 : (Read.idx_main_v4 (ix1 q) 2).val = q.val / 128 % 64 := rfl
  have c3 : (Read.idx_main_v4 (ix1 q) 3).val = q.val % 128 := rfl
  rw [c0, c1, c2, c3, h] at hm
  unfold Cert.Unpool.flat at hm
  have d0 : q.val / 524288 = (i 0).val := by omega
  have d1 : q.val / 8192 % 64 = (i 1).val / 2 := by omega
  have d2 : q.val / 128 % 64 = (i 2).val / 2 := by omega
  have d3 : q.val % 128 = (i 3).val := by omega
  funext a
  match a with
  | ⟨0, _⟩ => exact Fin.ext d0
  | ⟨1, _⟩ => exact Fin.ext d1
  | ⟨2, _⟩ => exact Fin.ext d2
  | ⟨3, _⟩ => exact Fin.ext d3

/-- The flat index of position `i`'s parent in the pooled tensor. -/
def parentFlat (i : Cert.Unpool.Unpooled.Idx) : Fin 8388608 :=
  ⟨(((i 0).val * 64 + (i 1).val / 2) * 64 + (i 2).val / 2) * 128 + (i 3).val, by
    have hi0 : (i 0).val < 16 := (i 0).isLt
    have hi1 : (i 1).val < 128 := (i 1).isLt
    have hi2 : (i 2).val < 128 := (i 2).isLt
    have hi3 : (i 3).val < 128 := (i 3).isLt
    omega⟩

/-- The element with that flat index is the parent. -/
theorem elt_parentFlat (i : Cert.Unpool.Unpooled.Idx) : Read.idx_main_v4 (ix1 (parentFlat i)) = Cert.Unpool.parent i := by
  have hi0 : (i 0).val < 16 := (i 0).isLt
  have hi1 : (i 1).val < 128 := (i 1).isLt
  have hi2 : (i 2).val < 128 := (i 2).isLt
  have hi3 : (i 3).val < 128 := (i 3).isLt
  funext a
  match a with
  | ⟨0, _⟩ =>
    apply Fin.ext
    show ((((i 0).val * 64 + (i 1).val / 2) * 64 + (i 2).val / 2) * 128 + (i 3).val) / 524288 = (i 0).val
    omega
  | ⟨1, _⟩ =>
    apply Fin.ext
    show ((((i 0).val * 64 + (i 1).val / 2) * 64 + (i 2).val / 2) * 128 + (i 3).val) / 8192 % 64 = (i 1).val / 2
    omega
  | ⟨2, _⟩ =>
    apply Fin.ext
    show ((((i 0).val * 64 + (i 1).val / 2) * 64 + (i 2).val / 2) * 128 + (i 3).val) / 128 % 64 = (i 2).val / 2
    omega
  | ⟨3, _⟩ =>
    apply Fin.ext
    show ((((i 0).val * 64 + (i 1).val / 2) * 64 + (i 2).val / 2) * 128 + (i 3).val) % 128 = (i 3).val
    omega

/-- Only that flat index gives the parent. -/
theorem eq_parentFlat (q : Fin 8388608) (i : Cert.Unpool.Unpooled.Idx)
    (h : Read.idx_main_v4 (ix1 q) = Cert.Unpool.parent i) : q = parentFlat i := by
  have hq : q.val < 8388608 := q.isLt
  have d0 : q.val / 524288 = (i 0).val := congrArg Fin.val (congrFun h 0)
  have d1 : q.val / 8192 % 64 = (i 1).val / 2 := congrArg Fin.val (congrFun h 1)
  have d2 : q.val / 128 % 64 = (i 2).val / 2 := congrArg Fin.val (congrFun h 2)
  have d3 : q.val % 128 = (i 3).val := congrArg Fin.val (congrFun h 3)
  apply Fin.ext
  show q.val = (((i 0).val * 64 + (i 1).val / 2) * 64 + (i 2).val / 2) * 128 + (i 3).val
  omega

/-- The accumulating scatter at a position: the operand's entry plus the updates that land there. -/
theorem hostScatterAdd_apply {s si su : Shape} (d : ScatterDims s si su) {w : Nat} (x : s.Idx → EReal) (idx : IVec si w)
    (upd : su.Idx → EReal) (i : s.Idx) :
    Ideal.hostScatterAdd d x idx upd i
      = x i + ∑ j ∈ Finset.univ.filter (fun j => d.resultIdx? j idx = some i), upd j := rfl

/-- The scatter stage at the ideal instance. -/
theorem val_main_v22_eq (val : Cert.Unpool.Pooled.Idx → EReal) (mask : Cert.Unpool.Pooled.Idx → BitVec 32) :
    Read.val_main_v22 (F := Ideal) val mask
      = Ideal.hostScatterAdd dsc (Read.val_main_v8 (F := Ideal)) (Read.val_main_v21 (F := Ideal) mask)
          (Read.val_main_v0 (F := Ideal) val) := rfl

/-- A sum over the indices satisfying a predicate that only `a` satisfies is the term at `a`. -/
theorem sum_filter_eq_single {ι : Type} [Fintype ι] [DecidableEq ι] (p : ι → Prop) [DecidablePred p] (f : ι → EReal) (a : ι)
    (ha : p a) (huniq : ∀ j, p j → j = a) : ∑ j ∈ Finset.univ.filter p, f j = f a := by
  rw [Finset.sum_eq_single_of_mem a (Finset.mem_filter.2 ⟨Finset.mem_univ a, ha⟩)]
  intro j hj hne
  exact absurd (huniq j (Finset.mem_filter.1 hj).2) hne

/-- A sum over the indices satisfying a predicate nothing satisfies is zero. -/
theorem sum_filter_eq_zero {ι : Type} [Fintype ι] (p : ι → Prop) [DecidablePred p] (f : ι → EReal)
    (hnone : ∀ j, ¬ p j) : ∑ j ∈ Finset.univ.filter p, f j = 0 :=
  Finset.sum_eq_zero (fun j hj => absurd (Finset.mem_filter.1 hj).2 (hnone j))

/-- The reference's last stage is max-unpooling, where every mask entry names a position of its own window: at a
    position the scatter adds to zero the values of the elements whose mask word is the position's flat index; such an
    element is the position's parent, so the sum is the parent's value when the parent's word names the position and
    empty otherwise. -/
theorem scatter_eq_unpool (val : Cert.Unpool.Pooled.Idx → EReal) (mask : Cert.Unpool.Pooled.Idx → BitVec 32)
    (hw : Cert.Unpool.InWindow mask) :
    Cert.ReferenceIdeal.Read.val_main_v23 (F := Ideal) val mask = Cert.Unpool.unpool val mask := by
  funext i
  rw [Read.val_main_v23_apply]
  have hz : Read.val_main_v8 (F := Ideal) (Read.idx_main_v23 i) = 0 := by
    rw [Read.val_main_v8_apply, Read.val_main_cst_apply]; exact Ideal.ofBits_zero_f32
  rw [val_main_v22_eq, hostScatterAdd_apply, hz, zero_add]
  unfold Cert.Unpool.unpool
  by_cases hp : (mask (Cert.Unpool.parent i)).toNat = Cert.Unpool.flat i
  · rw [if_pos hp]
    refine (sum_filter_eq_single _ _ (ix1 (parentFlat i)) ?_ ?_).trans ?_
    · exact (lands_unpooled mask hw _ i).2 (by rw [elt_parentFlat]; exact hp)
    · intro j hj
      obtain ⟨q, rfl⟩ : ∃ q : Fin 8388608, j = ix1 q := ⟨j 0, eq_ix1 j⟩
      rw [eq_parentFlat q i (elt_eq_parent mask hw q i ((lands_unpooled mask hw _ i).1 hj))]
    · rw [Read.val_main_v0_apply]
      exact congrArg val (elt_parentFlat i)
  · rw [if_neg hp]
    refine sum_filter_eq_zero _ _ (fun j hj => hp ?_)
    obtain ⟨q, rfl⟩ : ∃ q : Fin 8388608, j = ix1 q := ⟨j 0, eq_ix1 j⟩
    have hword := (lands_unpooled mask hw _ i).1 hj
    rw [← elt_eq_parent mask hw q i hword]; exact hword

end Cert.ReferenceIdeal.UnpoolRef

end
-- ==== Proof.lean ====
/- Max-unpooling by (2, 2) windows: the kernel writes each pooled value into the quadrant of its own window that bits 14 and 7
   of its mask word name; the reference scatter-adds each value at its mask index into zeros. Where every mask entry is an
   argmax index of the pooling -- one of the four positions of its own window -- both are `Cert.Unpool.unpool` of the two
   argument arrays: Proof/Unpool.lean (the function, and the bit arithmetic), Proof/PreWindow.lean (the precondition gives the
   window property), Proof/KernelValue.lean (the kernel's run), Proof/RefValue.lean (the reference's scatter at a position). -/
import proofs.«413334_j73383811219747_1_alg».proof.Defs
import proofs.«413334_j73383811219747_1_alg».proof.Proof.Gen.Kernel
import proofs.«413334_j73383811219747_1_alg».proof.Proof.Gen.Kernel.Skeleton
import proofs.«413334_j73383811219747_1_alg».proof.Proof.Gen.Kernel.Launch
import proofs.«413334_j73383811219747_1_alg».proof.Proof.Gen.Kernel.Points
import proofs.«413334_j73383811219747_1_alg».proof.Proof.Gen.Kernel.Frame
import proofs.«413334_j73383811219747_1_alg».proof.Proof.Gen.KernelIdeal
import proofs.«413334_j73383811219747_1_alg».proof.Proof.Gen.KernelIdeal.Skeleton
import proofs.«413334_j73383811219747_1_alg».proof.Proof.Gen.KernelIdeal.Launch
import proofs.«413334_j73383811219747_1_alg».proof.Proof.Gen.KernelIdeal.Points
import proofs.«413334_j73383811219747_1_alg».proof.Proof.Gen.KernelIdeal.Frame
import proofs.«413334_j73383811219747_1_alg».proof.Proof.Gen.ReferenceIdeal
import proofs.«413334_j73383811219747_1_alg».proof.Proof.Gen.Pre_finite_inputs
import proofs.«413334_j73383811219747_1_alg».proof.Proof.Gen.ReferenceIdeal.Run
import proofs.«413334_j73383811219747_1_alg».proof.Proof.Gen.ReferenceIdeal.Read
import Idealize.ShloMosaic.Adequacy
import Idealize.ShloMosaic.Init

import proofs.«413334_j73383811219747_1_alg».proof.Proof.Unpool
import proofs.«413334_j73383811219747_1_alg».proof.Proof.PreWindow
import proofs.«413334_j73383811219747_1_alg».proof.Proof.KernelValue
import proofs.«413334_j73383811219747_1_alg».proof.Proof.RefValue

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end at max-unpooling of the arguments: the kernel by its run and the bit arithmetic, the reference by its
    run and the scatter read at a position, each under the window property the precondition gives. -/
theorem algebraic : Cert.algebraic_KernelIdeal_ReferenceIdeal := by
  intro m ρ m' ρ' hpre hagree
  have hw : ∀ c : Dev Cert.KernelIdeal.nD, Cert.Unpool.InWindow
      (m ((c.tc : Thread Cert.KernelIdeal.nD Cert.KernelIdeal.τ).loc Cert.KernelIdeal.main_arg1)) :=
    fun c => Cert.Unpool.inWindow_of_pre _ _ (hpre c)
  refine ⟨fun c => Cert.Unpool.unpool
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.Unpool.unpoolBits_eq_unpool _ _ (hw c)), (h c).2⟩)
      (Cert.KernelIdeal.UnpoolRun.run m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v23_eq, (hagree c).1, (hagree c).2]
    exact Cert.ReferenceIdeal.UnpoolRef.scatter_eq_unpool _ _ (hw c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
